-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x4096 .f32) (main_arg1 : FVec F S4096x4096 .f32) (main_arg2 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1x512 : Shape := ⟨2, ![1, 512]⟩
abbrev S1024x512 : Shape := ⟨2, ![1024, 512]⟩
abbrev S256x256 : Shape := ⟨2, ![256, 256]⟩
abbrev S1x256 : Shape := ⟨2, ![1, 256]⟩

abbrev nBuf : Space → Nat
  | .hbm => 5
  | .vmem => 12
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S1024x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1x512_S1x256_0_0 : ∀ a, (![0, 0] : Fin 2 → Nat) a + S1x256.size a ≤ S1x512.size a
  h_S1x256 : 0 < S1x256.numel
  shapeCasts_S1x256_S1x256 : S1x256.ShapeCasts S1x256
  broadcasts_S1x256_S256x256 : S1x256.Broadcasts S256x256
  inb_S1024x512_S256x256_0_0 : ∀ a, (![0, 0] : Fin 2 → Nat) a + S256x256.size a ≤ S1024x512.size a
  h_S256x256 : 0 < S256x256.numel
  inb_S1x512_S1x256_0_256 : ∀ a, (![0, 256] : Fin 2 → Nat) a + S1x256.size a ≤ S1x512.size a
  inb_S1024x512_S256x256_0_256 : ∀ a, (![0, 256] : Fin 2 → Nat) a + S256x256.size a ≤ S1024x512.size a
  inb_S1024x512_S256x256_256_0 : ∀ a, (![256, 0] : Fin 2 → Nat) a + S256x256.size a ≤ S1024x512.size a
  inb_S1024x512_S256x256_256_256 : ∀ a, (![256, 256] : Fin 2 → Nat) a + S256x256.size a ≤ S1024x512.size a
  inb_S1024x512_S256x256_512_0 : ∀ a, (![512, 0] : Fin 2 → Nat) a + S256x256.size a ≤ S1024x512.size a
  inb_S1024x512_S256x256_512_256 : ∀ a, (![512, 256] : Fin 2 → Nat) a + S256x256.size a ≤ S1024x512.size a
  inb_S1024x512_S256x256_768_0 : ∀ a, (![768, 0] : Fin 2 → Nat) a + S256x256.size a ≤ S1024x512.size a
  inb_S1024x512_S256x256_768_256 : ∀ a, (![768, 256] : Fin 2 → Nat) a + S256x256.size a ≤ S1024x512.size a
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1024x4096.size a
  hwx0_0 : ∀ i : grid0.Coords, EltTy.bits .f32 = 32 ∨ (Rect.block (s := S1024x4096) S256x4096.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S1024x4096.size a
  hwx0_1 : ∀ i : grid0.Coords, EltTy.bits .f32 = 32 ∨ (Rect.block (s := S1024x4096) S256x4096.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S1024x4096.size a
  hwx0_2 : ∀ i : grid0.Coords, EltTy.bits .f32 = 32 ∨ (Rect.block (s := S1024x4096) S256x4096.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S1024x4096.size a
  hwx0_3 : ∀ i : grid0.Coords, EltTy.bits .f32 = 32 ∨ (Rect.block (s := S1024x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x4096.size a
  hwx0_7 : ∀ i : grid0.Coords, EltTy.bits .f32 = 32 ∨ (Rect.block (s := S1024x4096) S1024x512.size (cc0_transform_7 i) (hinb0_7 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg0) S256x4096.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x4096.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x4096.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S256x4096.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1024x4096, .f32⟩
  | .hbm, ⟨5, _⟩ => ⟨S1x4096, .f32⟩
  | .hbm, ⟨6, _⟩ => ⟨S1024x4096, .f32⟩
  | .hbm, ⟨7, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.BitsSide.Body.lean ====
/-
  The kernel body's effect on its staging buffers, at any float instance.

  At one grid point the body is handed eight whole VMEM buffers: four row-quarters of `x`
  (each 256 x 4096), two consecutive 256-row blocks of `weight` (each 256 x 4096), a 1 x 512
  slice of the bias, and the 1024 x 512 output block. It writes the output block as eight
  256 x 256 tiles: tile (q, h) is the product of quarter `q` of `x` with the transpose of
  weight block `h`, accumulated from zero, plus half `h` of the bias slice broadcast down the
  rows. The eight tiles are disjoint and tile the block, so after the body the output buffer is
  the function that reads each index from the tile it lies in; the inputs are read only.
-/
import proofs.«162433_g38525856645424_cont_8to1_b_480_18_alg».proof.Proof.Gen.Kernel.Launch
import proofs.«162433_g38525856645424_cont_8to1_b_480_18_alg».proof.Proof.Gen.Kernel.Skeleton
import proofs.«162433_g38525856645424_cont_8to1_b_480_18_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole 256 x 4096 input buffer. -/
abbrev rIn : Rect S256x4096 := Rect.unit (s := S256x4096) ![0, 0] S256x4096.size inb_S256x4096_S256x4096_0_0
/-- The first and the second half of the 1 x 512 bias slice. -/
abbrev rBias0 : Rect S1x512 := Rect.unit (s := S1x512) ![0, 0] S1x256.size inb_S1x512_S1x256_0_0
abbrev rBias1 : Rect S1x512 := Rect.unit (s := S1x512) ![0, 256] S1x256.size inb_S1x512_S1x256_0_256
/-- The eight 256 x 256 tiles of the 1024 x 512 output block: row quarter `q`, column half `h`. -/
abbrev rT00 : Rect S1024x512 := Rect.unit (s := S1024x512) ![0, 0] S256x256.size inb_S1024x512_S256x256_0_0
abbrev rT01 : Rect S1024x512 := Rect.unit (s := S1024x512) ![0, 256] S256x256.size inb_S1024x512_S256x256_0_256
abbrev rT10 : Rect S1024x512 := Rect.unit (s := S1024x512) ![256, 0] S256x256.size inb_S1024x512_S256x256_256_0
abbrev rT11 : Rect S1024x512 := Rect.unit (s := S1024x512) ![256, 256] S256x256.size inb_S1024x512_S256x256_256_256
abbrev rT20 : Rect S1024x512 := Rect.unit (s := S1024x512) ![512, 0] S256x256.size inb_S1024x512_S256x256_512_0
abbrev rT21 : Rect S1024x512 := Rect.unit (s := S1024x512) ![512, 256] S256x256.size inb_S1024x512_S256x256_512_256
abbrev rT30 : Rect S1024x512 := Rect.unit (s := S1024x512) ![768, 0] S256x256.size inb_S1024x512_S256x256_768_0
abbrev rT31 : Rect S1024x512 := Rect.unit (s := S1024x512) ![768, 256] S256x256.size inb_S1024x512_S256x256_768_256

/-! ## What the body leaves in the output buffer -/

/-- The output buffer after the body, from the seven input buffers' contents: the eight tile stores as pieces,
    the last store first. -/
def outTiles (x0 x1 x2 x3 wa wb : Vec F S256x4096 .f32) (b : Vec F S1x512 .f32) : Vec F S1024x512 .f32 :=
  View.canon [⟨rT31, k0_pay2 (View.ld x3 rIn) (View.ld wb rIn) (View.ld b rBias1)⟩,
    ⟨rT30, k0_pay1 (k0_pay9 (View.ld x3 rIn) (View.ld wa rIn)) (View.ld b rBias0)⟩,
    ⟨rT21, k0_pay8 (View.ld x2 rIn) (View.ld wb rIn) (View.ld b rBias1)⟩,
    ⟨rT20, k0_pay7 (View.ld x2 rIn) (View.ld wa rIn) (View.ld b rBias0)⟩,
    ⟨rT11, k0_pay6 (View.ld x1 rIn) (View.ld wb rIn) (View.ld b rBias1)⟩,
    ⟨rT10, k0_pay5 (View.ld x1 rIn) (View.ld wa rIn) (View.ld b rBias0)⟩,
    ⟨rT01, k0_pay4 (View.ld x0 rIn) (View.ld wb rIn) (View.ld b rBias1)⟩,
    ⟨rT00, k0_pay3 (View.ld x0 rIn) (View.ld wa rIn) (View.ld b rBias0)⟩]

/-- The eight tiles tile the block, so every index of the block lies in one of them. -/
theorem tiles_cover (p31 p30 p21 p20 p11 p10 p01 p00 : Vec F S256x256 .f32) (y : S1024x512.Idx) :
    ∃ pc ∈ ([⟨rT31, p31⟩, ⟨rT30, p30⟩, ⟨rT21, p21⟩, ⟨rT20, p20⟩, ⟨rT11, p11⟩, ⟨rT10, p10⟩, ⟨rT01, p01⟩, ⟨rT00, p00⟩] :
      List (View.Piece (Elt F) S1024x512 .f32)), y ∈ pc.1.set :=
  View.cover_of_tiled [⟨rT31, p31⟩, ⟨rT30, p30⟩, ⟨rT21, p21⟩, ⟨rT20, p20⟩, ⟨rT11, p11⟩, ⟨rT10, p10⟩, ⟨rT01, p01⟩, ⟨rT00, p00⟩]
    S256x256.size (by rfl) y

/-! ## The body's triple -/

set_option maxHeartbeats 4000000 in
/-- The body on whole staging buffers, the inputs' at contents `x0 … b` and the output's at anything, runs to any
    continuation that holds for the inputs as they were and the output at `outTiles` of them. -/
theorem body_triple (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x4096 .f32) (harg5 : arg5.IsWhole) (arg6 : Memref sig .tc .vmem S256x4096 .f32) (harg6 : arg6.IsWhole)
    (arg7 : Memref sig .tc .vmem S1x512 .f32) (harg7 : arg7.IsWhole) (arg8 : Memref sig .tc .vmem S1024x512 .f32) (harg8 : arg8.IsWhole)
    (x0 x1 x2 x3 wa wb : Vec F S256x4096 .f32) (b : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare wa ∗ owns (c : Thread nD τ) arg6 fullShare wb
        ∗ owns (c : Thread nD τ) arg7 fullShare b ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare wa ∗ owns (c : Thread nD τ) arg6 fullShare wb
            ∗ owns (c : Thread nD τ) arg7 fullShare b ∗ owns (c : Thread nD τ) arg8 fullShare (outTiles x0 x1 x2 x3 wa wb b)) -∗ K ⟨⟩))
      ⊢ wp frame (wpE (defs₀ (F := F)) Variants.none c none) E
          (cc0__matmul_body i arg1 harg1 arg2 harg2 arg3 harg3 arg4 harg4 arg5 harg5 arg6 harg6 arg7 harg7 arg8 harg8) K := by
  simp only [cc0__matmul_body_eq_skeleton]; unfold cc0__matmul_body_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (tiles_cover _ _ _ _ _ _ _ _)

end Cert.Kernel.Hand

end
-- ==== Proof.BitsSide.Data.lean ====
/-
  The proof data of the kernel's one pipeline, and the body obligation at every grid point.

  The grid has eight points. Windows 0-3 are the four row-quarters of `x` (block index constant in the
  point: fetched once, then kept), windows 4 and 5 are weight blocks `2 t` and `2 t + 1`, window 6 is
  slice `t` of the bias row, window 7 is column block `t` of the result. The body only reads windows
  0-6, so at every point each of their staging buffers holds the window's block of its array as the
  region found it, whether the pipeline fetched it at that point or not; and it leaves in window 7's
  buffer the eight tiles computed from those seven blocks.
-/
import proofs.«162433_g38525856645424_cont_8to1_b_480_18_alg».proof.Proof.BitsSide.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation before
    it, the reshape of the bias vector into a 1 x 4096 row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its result: argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The reshape writes only its result: argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The reshape writes only its result: argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window whose body leaves its block in place holds that block at every point: where the pipeline
    fetched it, by the fetch; where it did not, the block index has not moved since the last fetch. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input buffer at its
    block and the output buffer at the eight tiles of the input blocks; no invariant of its own (the body
    keeps nothing but its staging buffers); nothing owed. The array `x` is read through four windows and `weight`
    through two: each window holds a share of its array, quarters of `x` and halves of `weight`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTiles (iblk m c 0 t) (iblk m c 1 t) (iblk m c 2 t) (iblk m c 3 t) (iblk m c 4 t) (iblk m c 5 t) (iblk m c 6 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare.left
    | ⟨5, _⟩ => fullShare.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t
    = outTiles (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsSide.Run.lean ====
/-
  The run of the kernel's program, at any float instance: @main terminates, nothing faults, the
  result array ends at what the pipeline's eight write-backs leave in it, and the three arguments
  end as launched.

  The pipeline reads `x` through four windows and `weight` through two. A read-only array handed to
  several windows is split among them by shares: `x`'s full share into four quarters, `weight`'s
  into two halves; each window's fetches read through its share, and the shares are joined again
  when the region ends. The bias vector itself is no window's array (the windows see its reshaped
  row): it bypasses the region and is read back at the end.
-/
import proofs.«162433_g38525856645424_cont_8to1_b_480_18_alg».proof.Proof.BitsSide.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, dealt by shares -/

/-- The eight windows sit on four distinct buffers. -/
theorem arrRefs_eq : Finset.univ.image (Pipeline.arrRef spec0) = [main_arg0, main_arg1, main_v0, main_v1].toFinset := by decide

/-- The four buffers one by one. -/
theorem bigSep_arrs {M : Type} [URA M] (Φ : Ref sig .tc → sProp M) :
    bigSep (Finset.univ.image (Pipeline.arrRef spec0)) Φ = iprop(Φ main_arg0 ∗ Φ main_arg1 ∗ Φ main_v0 ∗ Φ main_v1) :=
  bigSep_eq_bigSepL_of_eq [main_arg0, main_arg1, main_v0, main_v1] arrRefs_eq (by decide) Φ

/-- Window `w`'s array, at any share, at the contents the proof data give it at entry, is the buffer behind it at
    the contents the region finds. -/
theorem arr_pt (c : Dev nD) (w : Fin cfg0.W) (q : PosShare TreeShare) :
    (((cfg0.win w).arr.view.loc (c.tc : Thread nD τ)) ↦[(cfg0.win w).arr.view.set]{q} (dats m 0 c).arrAt w 0 : sProp 𝕄)
      = (((c.tc : Thread nD τ).loc (Pipeline.arrRef spec0 w)) ↦{q} V m c (Pipeline.arrRef spec0 w)) := by
  rw [(arr_whole0 w).set_eq_univ]; rfl

/-- The four buffers, each whole at the full share, give every window its array at its share. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  rw [arr_pt m c 0, arr_pt m c 1, arr_pt m c 2, arr_pt m c 3, arr_pt m c 4, arr_pt m c 5, arr_pt m c 6, arr_pt m c 7]
  iintro ⟨Hx, Hw, Hb, Ho⟩
  ihave Hx' := (pointsTo_share (PosShare.mem_left_op_right fullShare)).1 $$ Hx
  icases Hx' with ⟨Hxl, Hxr⟩
  ihave Hxl' := (pointsTo_share (PosShare.mem_left_op_right fullShare.left)).1 $$ Hxl
  icases Hxl' with ⟨Hx0, Hx1⟩
  ihave Hxr' := (pointsTo_share (PosShare.mem_left_op_right fullShare.right)).1 $$ Hxr
  icases Hxr' with ⟨Hx2, Hx3⟩
  ihave Hw' := (pointsTo_share (PosShare.mem_left_op_right fullShare)).1 $$ Hw
  icases Hw' with ⟨Hw0, Hw1⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hb]; · iexact Hb
  iexact Ho

/-! ## The launch -/

/-- The pipeline library's launch element: every staging cell's owner at round 0 and a duty token for every
    transfer the pipeline issues. -/
def u₀ : UR sig nD τ := Rounds.initOf (Pipeline.cells cfgs cellOf_inj) (Pipeline.launchToks cfgs cellOf_inj)

/-- What the run ends with: every window's array at what the library computes from the proof data, and every
    buffer that bypasses the region as the region found it. -/
def RunPost : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
/-- At the compiled mesh, for any values, from any memory with zero counters: every weakly fair execution of @main
    terminates and ends in `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun _ h c => h c)

/-- info: 'Cert.Kernel.Hand.run_main' depends on axioms: [propext, Classical.choice, Quot.sound] -/
#guard_msgs in #print axioms run_main

/-! ## The frame -/

/-- The argument arrays end as launched: `x` and `weight` are inputs of the pipeline, which writes back outputs
    only; the bias vector bypasses the region; and the host operation before the region wrote none of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 4).trans (((dats m 0 c).arrAt_in 4 rfl _).trans ((A_eq m c 4).trans (V_main_arg1 m c))),
     ((h c).2 main_arg2 (Pipeline.mem_restRefs_of main_arg2 rfl (by decide))).trans (V_main_arg2 m c)⟩) (run_main m ρ)

end Cert.Kernel.Hand

end
-- ==== Proof.IdealSide.Body.lean ====
/-
  The kernel body's effect on its staging buffers, at any float instance.

  At one grid point the body is handed eight whole VMEM buffers: four row-quarters of `x`
  (each 256 x 4096), two consecutive 256-row blocks of `weight` (each 256 x 4096), a 1 x 512
  slice of the bias, and the 1024 x 512 output block. It writes the output block as eight
  256 x 256 tiles: tile (q, h) is the product of quarter `q` of `x` with the transpose of
  weight block `h`, accumulated from zero, plus half `h` of the bias slice broadcast down the
  rows. The eight tiles are disjoint and tile the block, so after the body the output buffer is
  the function that reads each index from the tile it lies in; the inputs are read only.
-/
import proofs.«162433_g38525856645424_cont_8to1_b_480_18_alg».proof.Proof.Gen.KernelIdeal.Launch
import proofs.«162433_g38525856645424_cont_8to1_b_480_18_alg».proof.Proof.Gen.KernelIdeal.Skeleton
import proofs.«162433_g38525856645424_cont_8to1_b_480_18_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole 256 x 4096 input buffer. -/
abbrev rIn : Rect S256x4096 := Rect.unit (s := S256x4096) ![0, 0] S256x4096.size inb_S256x4096_S256x4096_0_0
/-- The first and the second half of the 1 x 512 bias slice. -/
abbrev rBias0 : Rect S1x512 := Rect.unit (s := S1x512) ![0, 0] S1x256.size inb_S1x512_S1x256_0_0
abbrev rBias1 : Rect S1x512 := Rect.unit (s := S1x512) ![0, 256] S1x256.size inb_S1x512_S1x256_0_256
/-- The eight 256 x 256 tiles of the 1024 x 512 output block: row quarter `q`, column half `h`. -/
abbrev rT00 : Rect S1024x512 := Rect.unit (s := S1024x512) ![0, 0] S256x256.size inb_S1024x512_S256x256_0_0
abbrev rT01 : Rect S1024x512 := Rect.unit (s := S1024x512) ![0, 256] S256x256.size inb_S1024x512_S256x256_0_256
abbrev rT10 : Rect S1024x512 := Rect.unit (s := S1024x512) ![256, 0] S256x256.size inb_S1024x512_S256x256_256_0
abbrev rT11 : Rect S1024x512 := Rect.unit (s := S1024x512) ![256, 256] S256x256.size inb_S1024x512_S256x256_256_256
abbrev rT20 : Rect S1024x512 := Rect.unit (s := S1024x512) ![512, 0] S256x256.size inb_S1024x512_S256x256_512_0
abbrev rT21 : Rect S1024x512 := Rect.unit (s := S1024x512) ![512, 256] S256x256.size inb_S1024x512_S256x256_512_256
abbrev rT30 : Rect S1024x512 := Rect.unit (s := S1024x512) ![768, 0] S256x256.size inb_S1024x512_S256x256_768_0
abbrev rT31 : Rect S1024x512 := Rect.unit (s := S1024x512) ![768, 256] S256x256.size inb_S1024x512_S256x256_768_256

/-! ## What the body leaves in the output buffer -/

/-- The output buffer after the body, from the seven input buffers' contents: the eight tile stores as pieces,
    the last store first. -/
def outTiles (x0 x1 x2 x3 wa wb : Vec F S256x4096 .f32) (b : Vec F S1x512 .f32) : Vec F S1024x512 .f32 :=
  View.canon [⟨rT31, k0_pay2 (View.ld x3 rIn) (View.ld wb rIn) (View.ld b rBias1)⟩,
    ⟨rT30, k0_pay1 (k0_pay9 (View.ld x3 rIn) (View.ld wa rIn)) (View.ld b rBias0)⟩,
    ⟨rT21, k0_pay8 (View.ld x2 rIn) (View.ld wb rIn) (View.ld b rBias1)⟩,
    ⟨rT20, k0_pay7 (View.ld x2 rIn) (View.ld wa rIn) (View.ld b rBias0)⟩,
    ⟨rT11, k0_pay6 (View.ld x1 rIn) (View.ld wb rIn) (View.ld b rBias1)⟩,
    ⟨rT10, k0_pay5 (View.ld x1 rIn) (View.ld wa rIn) (View.ld b rBias0)⟩,
    ⟨rT01, k0_pay4 (View.ld x0 rIn) (View.ld wb rIn) (View.ld b rBias1)⟩,
    ⟨rT00, k0_pay3 (View.ld x0 rIn) (View.ld wa rIn) (View.ld b rBias0)⟩]

/-- The eight tiles tile the block, so every index of the block lies in one of them. -/
theorem tiles_cover (p31 p30 p21 p20 p11 p10 p01 p00 : Vec F S256x256 .f32) (y : S1024x512.Idx) :
    ∃ pc ∈ ([⟨rT31, p31⟩, ⟨rT30, p30⟩, ⟨rT21, p21⟩, ⟨rT20, p20⟩, ⟨rT11, p11⟩, ⟨rT10, p10⟩, ⟨rT01, p01⟩, ⟨rT00, p00⟩] :
      List (View.Piece (Elt F) S1024x512 .f32)), y ∈ pc.1.set :=
  View.cover_of_tiled [⟨rT31, p31⟩, ⟨rT30, p30⟩, ⟨rT21, p21⟩, ⟨rT20, p20⟩, ⟨rT11, p11⟩, ⟨rT10, p10⟩, ⟨rT01, p01⟩, ⟨rT00, p00⟩]
    S256x256.size (by rfl) y

/-! ## The body's triple -/

set_option maxHeartbeats 4000000 in
/-- The body on whole staging buffers, the inputs' at contents `x0 … b` and the output's at anything, runs to any
    continuation that holds for the inputs as they were and the output at `outTiles` of them. -/
theorem body_triple (c : Dev nD) (E : Set ℕ) (i : grid0.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S256x4096 .f32) (harg4 : arg4.IsWhole)
    (arg5 : Memref sig .tc .vmem S256x4096 .f32) (harg5 : arg5.IsWhole) (arg6 : Memref sig .tc .vmem S256x4096 .f32) (harg6 : arg6.IsWhole)
    (arg7 : Memref sig .tc .vmem S1x512 .f32) (harg7 : arg7.IsWhole) (arg8 : Memref sig .tc .vmem S1024x512 .f32) (harg8 : arg8.IsWhole)
    (x0 x1 x2 x3 wa wb : Vec F S256x4096 .f32) (b : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare wa ∗ owns (c : Thread nD τ) arg6 fullShare wb
        ∗ owns (c : Thread nD τ) arg7 fullShare b ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare wa ∗ owns (c : Thread nD τ) arg6 fullShare wb
            ∗ owns (c : Thread nD τ) arg7 fullShare b ∗ owns (c : Thread nD τ) arg8 fullShare (outTiles x0 x1 x2 x3 wa wb b)) -∗ K ⟨⟩))
      ⊢ wp frame (wpE (defs₀ (F := F)) Variants.none c none) E
          (cc0__matmul_body i arg1 harg1 arg2 harg2 arg3 harg3 arg4 harg4 arg5 harg5 arg6 harg6 arg7 harg7 arg8 harg8) K := by
  simp only [cc0__matmul_body_eq_skeleton]; unfold cc0__matmul_body_skel
  simp only [k0_part1_eq_skeleton]; unfold k0_part1_skel
  simp only [k0_part2_eq_skeleton]; unfold k0_part2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (tiles_cover _ _ _ _ _ _ _ _)

end Cert.KernelIdeal.Hand

end
-- ==== Proof.IdealSide.Data.lean ====
/-
  The proof data of the kernel's one pipeline, and the body obligation at every grid point.

  The grid has eight points. Windows 0-3 are the four row-quarters of `x` (block index constant in the
  point: fetched once, then kept), windows 4 and 5 are weight blocks `2 t` and `2 t + 1`, window 6 is
  slice `t` of the bias row, window 7 is column block `t` of the result. The body only reads windows
  0-6, so at every point each of their staging buffers holds the window's block of its array as the
  region found it, whether the pipeline fetched it at that point or not; and it leaves in window 7's
  buffer the eight tiles computed from those seven blocks.
-/
import proofs.«162433_g38525856645424_cont_8to1_b_480_18_alg».proof.Proof.IdealSide.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation before
    it, the reshape of the bias vector into a 1 x 4096 row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only its result: argument 0 is as launched when the region is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The reshape writes only its result: argument 1 is as launched when the region is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The reshape writes only its result: argument 2 is as launched when the region is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window whose body leaves its block in place holds that block at every point: where the pipeline
    fetched it, by the fetch; where it did not, the block index has not moved since the last fetch. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core `c`: the arrays as the region finds them; after the body at point `t` each input buffer at its
    block and the output buffer at the eight tiles of the input blocks; no invariant of its own (the body
    keeps nothing but its staging buffers); nothing owed. The array `x` is read through four windows and `weight`
    through two: each window holds a share of its array, quarters of `x` and halves of `weight`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outTiles (iblk m c 0 t) (iblk m c 1 t) (iblk m c 2 t) (iblk m c 3 t) (iblk m c 4 t) (iblk m c 5 t) (iblk m c 6 t)
  Φ _ := iprop(emp)
  q w := match w with
    | ⟨0, _⟩ => fullShare.left.left
    | ⟨1, _⟩ => fullShare.left.right
    | ⟨2, _⟩ => fullShare.right.left
    | ⟨3, _⟩ => fullShare.right.right
    | ⟨4, _⟩ => fullShare.left
    | ⟨5, _⟩ => fullShare.right
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t
    = outTiles (iblk m c 0 t) (iblk m c 1 t) (iblk m c 2 t) (iblk m c 3 t) (iblk m c 4 t) (iblk m c 5 t) (iblk m c 6 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealSide.Run.lean ====
/-
  The run of the kernel's program, at any float instance: @main terminates, nothing faults, the
  result array ends at what the pipeline's eight write-backs leave in it, and the three arguments
  end as launched.

  The pipeline reads `x` through four windows and `weight` through two. A read-only array handed to
  several windows is split among them by shares: `x`'s full share into four quarters, `weight`'s
  into two halves; each window's fetches read through its share, and the shares are joined again
  when the region ends. The bias vector itself is no window's array (the windows see its reshaped
  row): it bypasses the region and is read back at the end.
-/
import proofs.«162433_g38525856645424_cont_8to1_b_480_18_alg».proof.Proof.IdealSide.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows, dealt by shares -/

/-- The eight windows sit on four distinct buffers. -/
theorem arrRefs_eq : Finset.univ.image (Pipeline.arrRef spec0) = [main_arg0, main_arg1, main_v0, main_v1].toFinset := by decide

/-- The four buffers one by one. -/
theorem bigSep_arrs {M : Type} [URA M] (Φ : Ref sig .tc → sProp M) :
    bigSep (Finset.univ.image (Pipeline.arrRef spec0)) Φ = iprop(Φ main_arg0 ∗ Φ main_arg1 ∗ Φ main_v0 ∗ Φ main_v1) :=
  bigSep_eq_bigSepL_of_eq [main_arg0, main_arg1, main_v0, main_v1] arrRefs_eq (by decide) Φ

/-- Window `w`'s array, at any share, at the contents the proof data give it at entry, is the buffer behind it at
    the contents the region finds. -/
theorem arr_pt (c : Dev nD) (w : Fin cfg0.W) (q : PosShare TreeShare) :
    (((cfg0.win w).arr.view.loc (c.tc : Thread nD τ)) ↦[(cfg0.win w).arr.view.set]{q} (dats m 0 c).arrAt w 0 : sProp 𝕄)
      = (((c.tc : Thread nD τ).loc (Pipeline.arrRef spec0 w)) ↦{q} V m c (Pipeline.arrRef spec0 w)) := by
  rw [(arr_whole0 w).set_eq_univ]; rfl

/-- The four buffers, each whole at the full share, give every window its array at its share. -/
theorem arrays_dealt (c : Dev nD) :
    (Pipeline.arrBufs spec0 c (V m c) : sProp 𝕄) ⊢ (dats m 0 c).arrays ((dats m 0 c).arrAt · 0) := by
  unfold Pipeline.arrBufs Dat.arrays
  rw [bigSep_arrs, bigSep_W0]
  rw [arr_pt m c 0, arr_pt m c 1, arr_pt m c 2, arr_pt m c 3, arr_pt m c 4, arr_pt m c 5, arr_pt m c 6, arr_pt m c 7]
  iintro ⟨Hx, Hw, Hb, Ho⟩
  ihave Hx' := (pointsTo_share (PosShare.mem_left_op_right fullShare)).1 $$ Hx
  icases Hx' with ⟨Hxl, Hxr⟩
  ihave Hxl' := (pointsTo_share (PosShare.mem_left_op_right fullShare.left)).1 $$ Hxl
  icases Hxl' with ⟨Hx0, Hx1⟩
  ihave Hxr' := (pointsTo_share (PosShare.mem_left_op_right fullShare.right)).1 $$ Hxr
  icases Hxr' with ⟨Hx2, Hx3⟩
  ihave Hw' := (pointsTo_share (PosShare.mem_left_op_right fullShare)).1 $$ Hw
  icases Hw' with ⟨Hw0, Hw1⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hb]; · iexact Hb
  iexact Ho

/-! ## The launch -/

/-- The pipeline library's launch element: every staging cell's owner at round 0 and a duty token for every
    transfer the pipeline issues. -/
def u₀ : UR sig nD τ := Rounds.initOf (Pipeline.cells cfgs cellOf_inj) (Pipeline.launchToks cfgs cellOf_inj)

/-- What the run ends with: every window's array at what the library computes from the proof data, and every
    buffer that bypasses the region as the region found it. -/
def RunPost : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

set_option backward.isDefEq.respectTransparency.types false in
/-- At the compiled mesh, for any values, from any memory with zero counters: every weakly fair execution of @main
    terminates and ends in `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := .rfl)
    (V := V m) (hmain := hmain m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun _ h c => h c)

/-- info: 'Cert.KernelIdeal.Hand.run_main' depends on axioms: [propext, Classical.choice, Quot.sound] -/
#guard_msgs in #print axioms run_main

/-! ## The frame -/

/-- The argument arrays end as launched: `x` and `weight` are inputs of the pipeline, which writes back outputs
    only; the bias vector bypasses the region; and the host operation before the region wrote none of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_main_arg0 m c))),
     ((h c).1 4).trans (((dats m 0 c).arrAt_in 4 rfl _).trans ((A_eq m c 4).trans (V_main_arg1 m c))),
     ((h c).2 main_arg2 (Pipeline.mem_restRefs_of main_arg2 rfl (by decide))).trans (V_main_arg2 m c)⟩) (run_main m ρ)

end Cert.KernelIdeal.Hand

end
-- ==== Proof.IdealSide.TileValue.lean ====
/-
  One output tile as a function of its index, over the extended reals.

  Every one of the body's eight stores writes the same expression of three loaded values: the
  product of a 256 x 4096 block `x` with the transpose of a 256 x 4096 block `w` (both operands
  contract their axis 1), accumulated from the zero splat, plus a 1 x 256 row `b` broadcast down
  the 256 rows. Over the extended reals, at index (p, q), that is

      (∑ k < 4096, x(p, k) * w(q, k)) + b(0, q):

  the zero accumulator adds nothing, the left operand's axis 0 reads the result's row and the
  right operand's axis 0 the result's column, and both axes 1 read the one contraction coordinate.
-/
import proofs.«162433_g38525856645424_cont_8to1_b_480_18_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

variable {F : FTy → Type} [FloatOps F]

/-- The product of a block with the transpose of another, from the zero accumulator. -/
def product (x w : Vec F S256x4096 .f32) : FVec F S256x256 .f32 :=
  matmul dot_S256x4096_S256x4096_S256x256_1_1_0_0_n_n none x w (constant S256x256 .f32 0x00000000#32)

/-- A 1 x 256 row broadcast down 256 rows. -/
def biasRows (b : Vec F S1x256 .f32) : FVec F S256x256 .f32 :=
  broadcastTo S256x256 (shapeCast S1x256 b shapeCasts_S1x256_S1x256) broadcasts_S1x256_S256x256

/-- The expression every store writes. -/
def tile (x w : Vec F S256x4096 .f32) (b : Vec F S1x256 .f32) : FVec F S256x256 .f32 :=
  addf (product x w) (biasRows b)

/-- Each store's payload is that expression (the last row-quarter's first tile has its product named apart). -/
theorem pay3_eq (x w : Vec F S256x4096 .f32) (b : Vec F S1x256 .f32) : k0_pay3 x w b = tile x w b := rfl
theorem pay4_eq (x w : Vec F S256x4096 .f32) (b : Vec F S1x256 .f32) : k0_pay4 x w b = tile x w b := rfl
theorem pay5_eq (x w : Vec F S256x4096 .f32) (b : Vec F S1x256 .f32) : k0_pay5 x w b = tile x w b := rfl
theorem pay6_eq (x w : Vec F S256x4096 .f32) (b : Vec F S1x256 .f32) : k0_pay6 x w b = tile x w b := rfl
theorem pay7_eq (x w : Vec F S256x4096 .f32) (b : Vec F S1x256 .f32) : k0_pay7 x w b = tile x w b := rfl
theorem pay8_eq (x w : Vec F S256x4096 .f32) (b : Vec F S1x256 .f32) : k0_pay8 x w b = tile x w b := rfl
theorem pay2_eq (x w : Vec F S256x4096 .f32) (b : Vec F S1x256 .f32) : k0_pay2 x w b = tile x w b := rfl
theorem pay19_eq (x w : Vec F S256x4096 .f32) (b : Vec F S1x256 .f32) : k0_pay1 (k0_pay9 x w) b = tile x w b := rfl

/-! The operand indices of the product, one axis at a time. -/

theorem lhs_axis0 (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_axis1 (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_axis0 (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_axis1 (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The product into the zero accumulator at (p, q): the sum over k of x(p, k) * w(q, k). -/
theorem product_apply (x w : FVec Ideal S256x4096 .f32) (p q : Fin 256) :
    product (F := Ideal) x w (ix2 p q) = ∑ k : Fin 4096, x (ix2 p k) * w (ix2 q k) := by
  unfold product
  refine (Ideal.matmul_constant_zero_apply dot_S256x4096_S256x4096_S256x256_1_1_0_0_n_n none x w (ix2 p q)).trans ?_
  rw [← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S256x4096_S256x4096_S256x256_1_1_0_0_n_n.rhsIdx (ix2 p q) ((contrEquiv1 dot_S256x4096_S256x4096_S256x256_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- The bias row broadcast down the rows, at (p, q): b(0, q). -/
theorem bias_apply (b : FVec Ideal S1x256 .f32) (p q : Fin 256) :
    biasRows (F := Ideal) b (ix2 p q) = b (ix2 0 q) := by
  unfold biasRows
  rw [shapeCast_self]
  exact broadcastTo_apply b broadcasts_S1x256_S256x256 (ix2 p q) (ix2 0 q) (fun a => match a with
    | ⟨0, _⟩ => by show (0 : Nat) = if (1 : Nat) = 1 then 0 else _; rw [if_pos rfl]
    | ⟨1, _⟩ => by show q.val = if (256 : Nat) = 1 then 0 else q.val; rw [if_neg (by decide)])

/-- A tile at (p, q). -/
theorem tile_apply (x w : FVec Ideal S256x4096 .f32) (b : FVec Ideal S1x256 .f32) (p q : Fin 256) :
    tile (F := Ideal) x w b (ix2 p q) = (∑ k : Fin 4096, x (ix2 p k) * w (ix2 q k)) + b (ix2 0 q) := by
  unfold tile
  rw [addf_apply, product_apply, bias_apply]

end Cert.KernelIdeal.Hand

end
-- ==== Proof.Spec.lean ====
/-
  What both programs compute: a linear layer over the extended reals.

  For x : [1024, 4096], weight : [4096, 4096] and bias : [4096], entry (r, n) of the result is

      (∑ k < 4096, x(r, k) * weight(n, k)) + bias(n).

  The kernel sees the bias as a 1 x 4096 row; `linearRow` is the same function of that row.
-/
import Idealize.ShloMosaic.PureOps.Ideal
import Idealize.ShloMosaic.Lib.ValueIdx

noncomputable section

namespace Cert.Spec

open Idealize.ShloMosaic Idealize.ShloMosaic.ValueIdx

abbrev SX : Shape := ⟨2, ![1024, 4096]⟩
abbrev SW : Shape := ⟨2, ![4096, 4096]⟩
abbrev SB : Shape := ⟨1, ![4096]⟩
abbrev SRow : Shape := ⟨2, ![1, 4096]⟩

/-- Entry (r, n), given the bias term `bn` for column n. -/
def entry (x : SX.Idx → EReal) (w : SW.Idx → EReal) (bn : EReal) (r : Fin 1024) (n : Fin 4096) : EReal :=
  (∑ k : Fin 4096, x (ix2 r k) * w (ix2 n k)) + bn

/-- The layer, from the bias vector. -/
def linear (x : SX.Idx → EReal) (w : SW.Idx → EReal) (b : SB.Idx → EReal) : SX.Idx → EReal := fun i =>
  entry x w (b (ix1 (⟨(i 1).val, (i 1).isLt⟩ : Fin 4096))) ⟨(i 0).val, (i 0).isLt⟩ ⟨(i 1).val, (i 1).isLt⟩

/-- The layer, from the bias as a 1 x 4096 row. -/
def linearRow (x : SX.Idx → EReal) (w : SW.Idx → EReal) (brow : SRow.Idx → EReal) : SX.Idx → EReal := fun i =>
  entry x w (brow (ix2 (0 : Fin 1) (⟨(i 1).val, (i 1).isLt⟩ : Fin 4096))) ⟨(i 0).val, (i 0).isLt⟩ ⟨(i 1).val, (i 1).isLt⟩

/-- A row that holds the vector's entries gives the same layer. -/
theorem linearRow_eq (x : SX.Idx → EReal) (w : SW.Idx → EReal) (brow : SRow.Idx → EReal) (b : SB.Idx → EReal)
    (h : ∀ n : Fin 4096, brow (ix2 (0 : Fin 1) n) = b (ix1 n)) : linearRow x w brow = linear x w b := by
  funext i; unfold linearRow linear; rw [h]

end Cert.Spec

end
-- ==== Proof.IdealSide.Value.lean ====
/-
  The result array of the idealized kernel is the linear layer of its arguments.

  Point `t` of the grid writes back column block `t` (columns 512 t .. 512 t + 511) of the result.
  What it writes is eight 256 x 256 tiles; tile (q, h) at local index (p, j) is
  (∑ k, xq(p, k) * wh(j, k)) + b(0, 256 h + j), where xq is rows 256 q .. of `x`, wh is rows
  256 (2 t + h) .. of `weight` and b is columns 512 t .. of the bias row. That is entry
  (256 q + p, 512 t + 256 h + j) of the layer: every tile is a block of one function of the index,
  so the block is that function, and the eight blocks cover the array.
-/
import proofs.«162433_g38525856645424_cont_8to1_b_480_18_alg».proof.Proof.IdealSide.Run
import proofs.«162433_g38525856645424_cont_8to1_b_480_18_alg».proof.Proof.IdealSide.TileValue
import proofs.«162433_g38525856645424_cont_8to1_b_480_18_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps, decided over the grid -/

theorem idx_facts : ∀ t : Fin cfg0.N,
    win0_0.index t (0 : Fin 2) = 0 ∧ win0_0.index t (1 : Fin 2) = 0
    ∧ win0_1.index t (0 : Fin 2) = 1 ∧ win0_1.index t (1 : Fin 2) = 0
    ∧ win0_2.index t (0 : Fin 2) = 2 ∧ win0_2.index t (1 : Fin 2) = 0
    ∧ win0_3.index t (0 : Fin 2) = 3 ∧ win0_3.index t (1 : Fin 2) = 0
    ∧ win0_4.index t (0 : Fin 2) = 2 * t.val ∧ win0_4.index t (1 : Fin 2) = 0
    ∧ win0_5.index t (0 : Fin 2) = 2 * t.val + 1 ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-! ## The loaded values, read off the arrays -/

/-- Row-quarter 0 of `x`: local row p is row 0 + p of the array. -/
theorem x0_read (c : Dev nD) (t : Fin cfg0.N) (p : Fin 256) (k : Fin 4096) (R : Fin 1024) (hR : R.val = 0 + p.val) :
    View.ld (iblk m c 0 t) rIn (ix2 p k) = V m c main_arg0 (ix2 R k) := by
  show V m c main_arg0 (((cfg0.win 0).blk t).view.emb (rIn.emb (ix2 p k))) = _
  refine congrArg (V m c main_arg0) ?_
  funext a; apply Fin.ext
  obtain ⟨e00, e01, e10, e11, e20, e21, e30, e31, e40, e41, e50, e51, e60, e61, e70, e71⟩ := idx_facts t
  match a with
  | ⟨0, _⟩ => show win0_0.index t (0 : Fin 2) * 256 + 1 * (0 + 1 * p.val) = R.val; omega
  | ⟨1, _⟩ => show win0_0.index t (1 : Fin 2) * 4096 + 1 * (0 + 1 * k.val) = k.val; omega
/-- Row-quarter 1 of `x`: local row p is row 256 + p of the array. -/
theorem x1_read (c : Dev nD) (t : Fin cfg0.N) (p : Fin 256) (k : Fin 4096) (R : Fin 1024) (hR : R.val = 256 + p.val) :
    View.ld (iblk m c 1 t) rIn (ix2 p k) = V m c main_arg0 (ix2 R k) := by
  show V m c main_arg0 (((cfg0.win 1).blk t).view.emb (rIn.emb (ix2 p k))) = _
  refine congrArg (V m c main_arg0) ?_
  funext a; apply Fin.ext
  obtain ⟨e00, e01, e10, e11, e20, e21, e30, e31, e40, e41, e50, e51, e60, e61, e70, e71⟩ := idx_facts t
  match a with
  | ⟨0, _⟩ => show win0_1.index t (0 : Fin 2) * 256 + 1 * (0 + 1 * p.val) = R.val; omega
  | ⟨1, _⟩ => show win0_1.index t (1 : Fin 2) * 4096 + 1 * (0 + 1 * k.val) = k.val; omega
/-- Row-quarter 2 of `x`: local row p is row 512 + p of the array. -/
theorem x2_read (c : Dev nD) (t : Fin cfg0.N) (p : Fin 256) (k : Fin 4096) (R : Fin 1024) (hR : R.val = 512 + p.val) :
    View.ld (iblk m c 2 t) rIn (ix2 p k) = V m c main_arg0 (ix2 R k) := by
  show V m c main_arg0 (((cfg0.win 2).blk t).view.emb (rIn.emb (ix2 p k))) = _
  refine congrArg (V m c main_arg0) ?_
  funext a; apply Fin.ext
  obtain ⟨e00, e01, e10, e11, e20, e21, e30, e31, e40, e41, e50, e51, e60, e61, e70, e71⟩ := idx_facts t
  match a with
  | ⟨0, _⟩ => show win0_2.index t (0 : Fin 2) * 256 + 1 * (0 + 1 * p.val) = R.val; omega
  | ⟨1, _⟩ => show win0_2.index t (1 : Fin 2) * 4096 + 1 * (0 + 1 * k.val) = k.val; omega
/-- Row-quarter 3 of `x`: local row p is row 768 + p of the array. -/
theorem x3_read (c : Dev nD) (t : Fin cfg0.N) (p : Fin 256) (k : Fin 4096) (R : Fin 1024) (hR : R.val = 768 + p.val) :
    View.ld (iblk m c 3 t) rIn (ix2 p k) = V m c main_arg0 (ix2 R k) := by
  show V m c main_arg0 (((cfg0.win 3).blk t).view.emb (rIn.emb (ix2 p k))) = _
  refine congrArg (V m c main_arg0) ?_
  funext a; apply Fin.ext
  obtain ⟨e00, e01, e10, e11, e20, e21, e30, e31, e40, e41, e50, e51, e60, e61, e70, e71⟩ := idx_facts t
  match a with
  | ⟨0, _⟩ => show win0_3.index t (0 : Fin 2) * 256 + 1 * (0 + 1 * p.val) = R.val; omega
  | ⟨1, _⟩ => show win0_3.index t (1 : Fin 2) * 4096 + 1 * (0 + 1 * k.val) = k.val; omega

/-- Weight block 0 of the point: local row j is row 512 t + 0 + j of the array. -/
theorem w0_read (c : Dev nD) (t : Fin cfg0.N) (j : Fin 256) (k : Fin 4096) (N : Fin 4096) (hN : N.val = 512 * t.val + 0 + j.val) :
    View.ld (iblk m c 4 t) rIn (ix2 j k) = V m c main_arg1 (ix2 N k) := by
  show V m c main_arg1 (((cfg0.win 4).blk t).view.emb (rIn.emb (ix2 j k))) = _
  refine congrArg (V m c main_arg1) ?_
  funext a; apply Fin.ext
  obtain ⟨e00, e01, e10, e11, e20, e21, e30, e31, e40, e41, e50, e51, e60, e61, e70, e71⟩ := idx_facts t
  match a with
  | ⟨0, _⟩ => show win0_4.index t (0 : Fin 2) * 256 + 1 * (0 + 1 * j.val) = N.val; omega
  | ⟨1, _⟩ => show win0_4.index t (1 : Fin 2) * 4096 + 1 * (0 + 1 * k.val) = k.val; omega
/-- Weight block 1 of the point: local row j is row 512 t + 256 + j of the array. -/
theorem w1_read (c : Dev nD) (t : Fin cfg0.N) (j : Fin 256) (k : Fin 4096) (N : Fin 4096) (hN : N.val = 512 * t.val + 256 + j.val) :
    View.ld (iblk m c 5 t) rIn (ix2 j k) = V m c main_arg1 (ix2 N k) := by
  show V m c main_arg1 (((cfg0.win 5).blk t).view.emb (rIn.emb (ix2 j k))) = _
  refine congrArg (V m c main_arg1) ?_
  funext a; apply Fin.ext
  obtain ⟨e00, e01, e10, e11, e20, e21, e30, e31, e40, e41, e50, e51, e60, e61, e70, e71⟩ := idx_facts t
  match a with
  | ⟨0, _⟩ => show win0_5.index t (0 : Fin 2) * 256 + 1 * (0 + 1 * j.val) = N.val; omega
  | ⟨1, _⟩ => show win0_5.index t (1 : Fin 2) * 4096 + 1 * (0 + 1 * k.val) = k.val; omega

/-- Half 0 of the point's bias slice: local column j is column 512 t + 0 + j of the bias row. -/
theorem b0_read (c : Dev nD) (t : Fin cfg0.N) (j : Fin 256) (N : Fin 4096) (hN : N.val = 512 * t.val + 0 + j.val) :
    View.ld (iblk m c 6 t) rBias0 (ix2 (0 : Fin 1) j) = V m c main_v0 (ix2 (0 : Fin 1) N) := by
  show V m c main_v0 (((cfg0.win 6).blk t).view.emb (rBias0.emb (ix2 (0 : Fin 1) j))) = _
  refine congrArg (V m c main_v0) ?_
  funext a; apply Fin.ext
  obtain ⟨e00, e01, e10, e11, e20, e21, e30, e31, e40, e41, e50, e51, e60, e61, e70, e71⟩ := idx_facts t
  match a with
  | ⟨0, _⟩ => show win0_6.index t (0 : Fin 2) * 1 + 1 * (0 + 1 * (0 : Fin 1).val) = (0 : Fin 1).val; simp only [Fin.val_zero]; omega
  | ⟨1, _⟩ => show win0_6.index t (1 : Fin 2) * 512 + 1 * (0 + 1 * j.val) = N.val; omega
/-- Half 1 of the point's bias slice: local column j is column 512 t + 256 + j of the bias row. -/
theorem b1_read (c : Dev nD) (t : Fin cfg0.N) (j : Fin 256) (N : Fin 4096) (hN : N.val = 512 * t.val + 256 + j.val) :
    View.ld (iblk m c 6 t) rBias1 (ix2 (0 : Fin 1) j) = V m c main_v0 (ix2 (0 : Fin 1) N) := by
  show V m c main_v0 (((cfg0.win 6).blk t).view.emb (rBias1.emb (ix2 (0 : Fin 1) j))) = _
  refine congrArg (V m c main_v0) ?_
  funext a; apply Fin.ext
  obtain ⟨e00, e01, e10, e11, e20, e21, e30, e31, e40, e41, e50, e51, e60, e61, e70, e71⟩ := idx_facts t
  match a with
  | ⟨0, _⟩ => show win0_6.index t (0 : Fin 2) * 1 + 1 * (0 + 1 * (0 : Fin 1).val) = (0 : Fin 1).val; simp only [Fin.val_zero]; omega
  | ⟨1, _⟩ => show win0_6.index t (1 : Fin 2) * 512 + 1 * (256 + 1 * j.val) = N.val; omega

/-! ## A tile's place in the array -/

/-- Local index (p, j) of the tile at offset (o0, o1) of column block `t` is row o0 + p -/
theorem tile_row (t : Fin cfg0.N) (o0 o1 : Nat) (inb : ∀ a, (![o0, o1] : Fin 2 → Nat) a + S256x256.size a ≤ S1024x512.size a) (p j : Fin 256) :
    ((((cfg0.win 7).blk t).view.emb ((Rect.unit (s := S1024x512) ![o0, o1] S256x256.size inb).emb (ix2 p j))) 0).val = o0 + p.val := by
  obtain ⟨e00, e01, e10, e11, e20, e21, e30, e31, e40, e41, e50, e51, e60, e61, e70, e71⟩ := idx_facts t
  show win0_7.index t (0 : Fin 2) * 1024 + 1 * (o0 + 1 * p.val) = _
  omega

/-- and column 512 t + o1 + j of the array. -/
theorem tile_col (t : Fin cfg0.N) (o0 o1 : Nat) (inb : ∀ a, (![o0, o1] : Fin 2 → Nat) a + S256x256.size a ≤ S1024x512.size a) (p j : Fin 256) :
    ((((cfg0.win 7).blk t).view.emb ((Rect.unit (s := S1024x512) ![o0, o1] S256x256.size inb).emb (ix2 p j))) 1).val = 512 * t.val + o1 + j.val := by
  obtain ⟨e00, e01, e10, e11, e20, e21, e30, e31, e40, e41, e50, e51, e60, e61, e70, e71⟩ := idx_facts t
  show win0_7.index t (1 : Fin 2) * 512 + 1 * (o1 + 1 * j.val) = _
  omega

/-! ## The block a point writes back -/

/-- Column block `t` of the layer of the arrays as the region finds them (the bias as its row). -/
def layerBlock (c : Dev nD) (t : Fin cfg0.N) : S1024x512.Idx → Elt Ideal .f32 :=
  ((cfg0.win 7).blk t).view.read (Elt Ideal) (Cert.Spec.linearRow (V m c main_arg0) (V m c main_arg1) (V m c main_v0))

/-- Tile (0, 0) is its block of the layer. -/
theorem tile00_eq (c : Dev nD) (t : Fin cfg0.N) (x : rT00.shape.Idx) :
    k0_pay3 (View.ld (iblk m c 0 t) rIn) (View.ld (iblk m c 4 t) rIn) (View.ld (iblk m c 6 t) rBias0) x = layerBlock m c t (rT00.emb x) := by
  obtain ⟨p, j, rfl⟩ : ∃ (p j : Fin 256), x = ix2 p j := ⟨x 0, x 1, eq_ix2 x⟩
  rw [pay3_eq]
  refine (tile_apply _ _ _ p j).trans ?_
  show _ = Cert.Spec.linearRow (V m c main_arg0) (V m c main_arg1) (V m c main_v0) (((cfg0.win 7).blk t).view.emb (rT00.emb (ix2 p j)))
  unfold Cert.Spec.linearRow Cert.Spec.entry
  have hr := tile_row t 0 0 inb_S1024x512_S256x256_0_0 p j
  have hc := tile_col t 0 0 inb_S1024x512_S256x256_0_0 p j
  refine congrArg₂ (fun a b : EReal => a + b) ?_ ?_
  · refine Finset.sum_congr rfl fun k _ => ?_
    refine congrArg₂ (fun a b : EReal => a * b) ?_ ?_
    · exact x0_read m c t p k _ hr
    · exact w0_read m c t j k _ hc
  · exact b0_read m c t j _ hc
/-- Tile (0, 1) is its block of the layer. -/
theorem tile01_eq (c : Dev nD) (t : Fin cfg0.N) (x : rT01.shape.Idx) :
    k0_pay4 (View.ld (iblk m c 0 t) rIn) (View.ld (iblk m c 5 t) rIn) (View.ld (iblk m c 6 t) rBias1) x = layerBlock m c t (rT01.emb x) := by
  obtain ⟨p, j, rfl⟩ : ∃ (p j : Fin 256), x = ix2 p j := ⟨x 0, x 1, eq_ix2 x⟩
  rw [pay4_eq]
  refine (tile_apply _ _ _ p j).trans ?_
  show _ = Cert.Spec.linearRow (V m c main_arg0) (V m c main_arg1) (V m c main_v0) (((cfg0.win 7).blk t).view.emb (rT01.emb (ix2 p j)))
  unfold Cert.Spec.linearRow Cert.Spec.entry
  have hr := tile_row t 0 256 inb_S1024x512_S256x256_0_256 p j
  have hc := tile_col t 0 256 inb_S1024x512_S256x256_0_256 p j
  refine congrArg₂ (fun a b : EReal => a + b) ?_ ?_
  · refine Finset.sum_congr rfl fun k _ => ?_
    refine congrArg₂ (fun a b : EReal => a * b) ?_ ?_
    · exact x0_read m c t p k _ hr
    · exact w1_read m c t j k _ hc
  · exact b1_read m c t j _ hc
/-- Tile (1, 0) is its block of the layer. -/
theorem tile10_eq (c : Dev nD) (t : Fin cfg0.N) (x : rT10.shape.Idx) :
    k0_pay5 (View.ld (iblk m c 1 t) rIn) (View.ld (iblk m c 4 t) rIn) (View.ld (iblk m c 6 t) rBias0) x = layerBlock m c t (rT10.emb x) := by
  obtain ⟨p, j, rfl⟩ : ∃ (p j : Fin 256), x = ix2 p j := ⟨x 0, x 1, eq_ix2 x⟩
  rw [pay5_eq]
  refine (tile_apply _ _ _ p j).trans ?_
  show _ = Cert.Spec.linearRow (V m c main_arg0) (V m c main_arg1) (V m c main_v0) (((cfg0.win 7).blk t).view.emb (rT10.emb (ix2 p j)))
  unfold Cert.Spec.linearRow Cert.Spec.entry
  have hr := tile_row t 256 0 inb_S1024x512_S256x256_256_0 p j
  have hc := tile_col t 256 0 inb_S1024x512_S256x256_256_0 p j
  refine congrArg₂ (fun a b : EReal => a + b) ?_ ?_
  · refine Finset.sum_congr rfl fun k _ => ?_
    refine congrArg₂ (fun a b : EReal => a * b) ?_ ?_
    · exact x1_read m c t p k _ hr
    · exact w0_read m c t j k _ hc
  · exact b0_read m c t j _ hc
/-- Tile (1, 1) is its block of the layer. -/
theorem tile11_eq (c : Dev nD) (t : Fin cfg0.N) (x : rT11.shape.Idx) :
    k0_pay6 (View.ld (iblk m c 1 t) rIn) (View.ld (iblk m c 5 t) rIn) (View.ld (iblk m c 6 t) rBias1) x = layerBlock m c t (rT11.emb x) := by
  obtain ⟨p, j, rfl⟩ : ∃ (p j : Fin 256), x = ix2 p j := ⟨x 0, x 1, eq_ix2 x⟩
  rw [pay6_eq]
  refine (tile_apply _ _ _ p j).trans ?_
  show _ = Cert.Spec.linearRow (V m c main_arg0) (V m c main_arg1) (V m c main_v0) (((cfg0.win 7).blk t).view.emb (rT11.emb (ix2 p j)))
  unfold Cert.Spec.linearRow Cert.Spec.entry
  have hr := tile_row t 256 256 inb_S1024x512_S256x256_256_256 p j
  have hc := tile_col t 256 256 inb_S1024x512_S256x256_256_256 p j
  refine congrArg₂ (fun a b : EReal => a + b) ?_ ?_
  · refine Finset.sum_congr rfl fun k _ => ?_
    refine congrArg₂ (fun a b : EReal => a * b) ?_ ?_
    · exact x1_read m c t p k _ hr
    · exact w1_read m c t j k _ hc
  · exact b1_read m c t j _ hc
/-- Tile (2, 0) is its block of the layer. -/
theorem tile20_eq (c : Dev nD) (t : Fin cfg0.N) (x : rT20.shape.Idx) :
    k0_pay7 (View.ld (iblk m c 2 t) rIn) (View.ld (iblk m c 4 t) rIn) (View.ld (iblk m c 6 t) rBias0) x = layerBlock m c t (rT20.emb x) := by
  obtain ⟨p, j, rfl⟩ : ∃ (p j : Fin 256), x = ix2 p j := ⟨x 0, x 1, eq_ix2 x⟩
  rw [pay7_eq]
  refine (tile_apply _ _ _ p j).trans ?_
  show _ = Cert.Spec.linearRow (V m c main_arg0) (V m c main_arg1) (V m c main_v0) (((cfg0.win 7).blk t).view.emb (rT20.emb (ix2 p j)))
  unfold Cert.Spec.linearRow Cert.Spec.entry
  have hr := tile_row t 512 0 inb_S1024x512_S256x256_512_0 p j
  have hc := tile_col t 512 0 inb_S1024x512_S256x256_512_0 p j
  refine congrArg₂ (fun a b : EReal => a + b) ?_ ?_
  · refine Finset.sum_congr rfl fun k _ => ?_
    refine congrArg₂ (fun a b : EReal => a * b) ?_ ?_
    · exact x2_read m c t p k _ hr
    · exact w0_read m c t j k _ hc
  · exact b0_read m c t j _ hc
/-- Tile (2, 1) is its block of the layer. -/
theorem tile21_eq (c : Dev nD) (t : Fin cfg0.N) (x : rT21.shape.Idx) :
    k0_pay8 (View.ld (iblk m c 2 t) rIn) (View.ld (iblk m c 5 t) rIn) (View.ld (iblk m c 6 t) rBias1) x = layerBlock m c t (rT21.emb x) := by
  obtain ⟨p, j, rfl⟩ : ∃ (p j : Fin 256), x = ix2 p j := ⟨x 0, x 1, eq_ix2 x⟩
  rw [pay8_eq]
  refine (tile_apply _ _ _ p j).trans ?_
  show _ = Cert.Spec.linearRow (V m c main_arg0) (V m c main_arg1) (V m c main_v0) (((cfg0.win 7).blk t).view.emb (rT21.emb (ix2 p j)))
  unfold Cert.Spec.linearRow Cert.Spec.entry
  have hr := tile_row t 512 256 inb_S1024x512_S256x256_512_256 p j
  have hc := tile_col t 512 256 inb_S1024x512_S256x256_512_256 p j
  refine congrArg₂ (fun a b : EReal => a + b) ?_ ?_
  · refine Finset.sum_congr rfl fun k _ => ?_
    refine congrArg₂ (fun a b : EReal => a * b) ?_ ?_
    · exact x2_read m c t p k _ hr
    · exact w1_read m c t j k _ hc
  · exact b1_read m c t j _ hc
/-- Tile (3, 0) is its block of the layer. -/
theorem tile30_eq (c : Dev nD) (t : Fin cfg0.N) (x : rT30.shape.Idx) :
    k0_pay1 (k0_pay9 (View.ld (iblk m c 3 t) rIn) (View.ld (iblk m c 4 t) rIn)) (View.ld (iblk m c 6 t) rBias0) x = layerBlock m c t (rT30.emb x) := by
  obtain ⟨p, j, rfl⟩ : ∃ (p j : Fin 256), x = ix2 p j := ⟨x 0, x 1, eq_ix2 x⟩
  rw [pay19_eq]
  refine (tile_apply _ _ _ p j).trans ?_
  show _ = Cert.Spec.linearRow (V m c main_arg0) (V m c main_arg1) (V m c main_v0) (((cfg0.win 7).blk t).view.emb (rT30.emb (ix2 p j)))
  unfold Cert.Spec.linearRow Cert.Spec.entry
  have hr := tile_row t 768 0 inb_S1024x512_S256x256_768_0 p j
  have hc := tile_col t 768 0 inb_S1024x512_S256x256_768_0 p j
  refine congrArg₂ (fun a b : EReal => a + b) ?_ ?_
  · refine Finset.sum_congr rfl fun k _ => ?_
    refine congrArg₂ (fun a b : EReal => a * b) ?_ ?_
    · exact x3_read m c t p k _ hr
    · exact w0_read m c t j k _ hc
  · exact b0_read m c t j _ hc
/-- Tile (3, 1) is its block of the layer. -/
theorem tile31_eq (c : Dev nD) (t : Fin cfg0.N) (x : rT31.shape.Idx) :
    k0_pay2 (View.ld (iblk m c 3 t) rIn) (View.ld (iblk m c 5 t) rIn) (View.ld (iblk m c 6 t) rBias1) x = layerBlock m c t (rT31.emb x) := by
  obtain ⟨p, j, rfl⟩ : ∃ (p j : Fin 256), x = ix2 p j := ⟨x 0, x 1, eq_ix2 x⟩
  rw [pay2_eq]
  refine (tile_apply _ _ _ p j).trans ?_
  show _ = Cert.Spec.linearRow (V m c main_arg0) (V m c main_arg1) (V m c main_v0) (((cfg0.win 7).blk t).view.emb (rT31.emb (ix2 p j)))
  unfold Cert.Spec.linearRow Cert.Spec.entry
  have hr := tile_row t 768 256 inb_S1024x512_S256x256_768_256 p j
  have hc := tile_col t 768 256 inb_S1024x512_S256x256_768_256 p j
  refine congrArg₂ (fun a b : EReal => a + b) ?_ ?_
  · refine Finset.sum_congr rfl fun k _ => ?_
    refine congrArg₂ (fun a b : EReal => a * b) ?_ ?_
    · exact x3_read m c t p k _ hr
    · exact w1_read m c t j k _ hc
  · exact b1_read m c t j _ hc

/-- What point `t` writes back is column block `t` of the layer. -/
theorem flushed_eq (c : Dev nD) (t : Fin cfg0.N) : (dats m 0 c).flushed 7 t = layerBlock m c t := by
  show (cfg0.win 7).cut (grid0.coords t) ((dats m 0 c).after 7 t) = _
  rw [after_out]
  funext y
  unfold outTiles
  refine View.canon_apply_of_pieces (Val := Elt Ideal) (layerBlock m c t) _ ?_ y (tiles_cover _ _ _ _ _ _ _ _ y)
  intro pc hpc
  simp only [List.mem_cons, List.not_mem_nil, or_false] at hpc
  rcases hpc with rfl | rfl | rfl | rfl | rfl | rfl | rfl | rfl
  · exact tile31_eq m c t
  · exact tile30_eq m c t
  · exact tile21_eq m c t
  · exact tile20_eq m c t
  · exact tile11_eq m c t
  · exact tile10_eq m c t
  · exact tile01_eq m c t
  · exact tile00_eq m c t

/-! ## The eight blocks cover the array -/

theorem mem_blk (t : Fin cfg0.N) (i : S1024x4096.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v1).slice (win0_7.rect t)).set ↔ _
  rw [View.set_slice_whole, Rect.mem_set_unit]
  exact Iff.rfl

/-- Column n lies in column block n / 512. -/
theorem covered (i : S1024x4096.Idx) : ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 8 := N_0
  let t : Fin cfg0.N := ⟨(i 1).val / 512, by rw [hN]; omega⟩
  have ht : t.val = (i 1).val / 512 := rfl
  refine ⟨t, flush0_7 t, ?_⟩
  rw [mem_blk]
  obtain ⟨e00, e01, e10, e11, e20, e21, e30, e31, e40, e41, e50, e51, e60, e61, e70, e71⟩ := idx_facts t
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 512 ≤ (i 1).val ∧ (i 1).val < win0_7.index t (1 : Fin 2) * 512 + 512; omega

/-! ## The result array -/

/-- The bias row the region finds holds the bias vector's entries: the host's reshape moves no element. -/
theorem bias_row (c : Dev nD) (n : Fin 4096) : V m c main_v0 (ix2 (0 : Fin 1) n) = m ((c : Thread nD τ).loc main_arg2) (ix1 n) := by
  have e : (V m c main_v0 : S1x4096.Idx → EReal) = shapeCast S1x4096 (m ((c : Thread nD τ).loc main_arg2)) shapeCasts_S4096_S1x4096 := by
    dsimp only [V, hostOps0]; after_results; rfl
  rw [e]
  refine shapeCast_apply _ _ (ix2 (0 : Fin 1) n) (ix1 n) ?_
  rw [Shape.rowMajor_val_one, Shape.rowMajor_val_two]
  show n.val = (0 : Fin 1).val * 4096 + n.val
  simp only [Fin.val_zero]; omega

/-- After the run the result array is the layer of the three arguments as launched. -/
theorem final (c : Dev nD) : (dats m 0 c).arrAt 7 cfg0.N
    = Cert.Spec.linear (m ((c : Thread nD τ).loc main_arg0)) (m ((c : Thread nD τ).loc main_arg1)) (m ((c : Thread nD τ).loc main_arg2)) := by
  rw [(dats m 0 c).arrAt_eq_of_cover 7 (Cert.Spec.linearRow (V m c main_arg0) (V m c main_arg1) (V m c main_v0))
    (fun t _ => flushed_eq m c t) covered]
  rw [Cert.Spec.linearRow_eq _ _ _ _ (bias_row m c), V_main_arg0, V_main_arg1]

/-- The idealized kernel's run with its result named: the layer of the arguments, which end as launched. -/
theorem run_value : θ_run defs (onTc (τ := τ) (main (F := Ideal))) ⟨m, fun _ => 0, ρ⟩ (fun r => ∀ c : Dev nD,
      r.2.mem ((c.tc : Thread nD τ).loc main_v1)
        = Cert.Spec.linear (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 7).trans (final m c),
     ((h c).1 0).trans (((dats m 0 c).arrAt_in 0 rfl _).trans ((A_eq m c 0).trans (V_main_arg0 m c))),
     ((h c).1 4).trans (((dats m 0 c).arrAt_in 4 rfl _).trans ((A_eq m c 4).trans (V_main_arg1 m c))),
     ((h c).2 main_arg2 (Pipeline.mem_restRefs_of main_arg2 rfl (by decide))).trans (V_main_arg2 m c)⟩) (run_main m ρ)

end Cert.KernelIdeal.Hand

end
-- ==== Proof.RefValue.lean ====
/-
  The reference computes the linear layer.

  Its program transposes the weight, contracts x's axis 1 with the transposed weight's axis 0,
  broadcasts the bias vector to a row and then down the rows, and adds. Read at index (r, n): the
  contraction is ∑ k, x(r, k) * weightᵀ(k, n) = ∑ k, x(r, k) * weight(n, k), and the broadcast
  bias is bias(n).
-/
import proofs.«162433_g38525856645424_cont_8to1_b_480_18_alg».proof.Defs
import proofs.«162433_g38525856645424_cont_8to1_b_480_18_alg».proof.Proof.Gen.ReferenceIdeal.Run
import proofs.«162433_g38525856645424_cont_8to1_b_480_18_alg».proof.Proof.Gen.ReferenceIdeal.Read
import proofs.«162433_g38525856645424_cont_8to1_b_480_18_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's result, as a function of its three arguments, is the layer. -/
theorem ref_eq (x0 : (⟨S1024x4096, .f32⟩ : BufTy).Contents (Elt Ideal)) (x1 : (⟨S4096x4096, .f32⟩ : BufTy).Contents (Elt Ideal))
    (x2 : (⟨S4096, .f32⟩ : BufTy).Contents (Elt Ideal)) :
    val_main_v4 (F := Ideal) x0 x1 x2 = Cert.Spec.linear x0 x1 x2 := by
  funext i
  rw [val_main_v4_apply, val_main_v1_apply, val_main_v3_apply, val_main_v2_apply]
  simp only [val_main_v0_apply]
  have e1 : ∀ k : Fin 4096, lidx_main_v1 i k = ix2 (⟨(i 0).val, (i 0).isLt⟩ : Fin 1024) k := fun k => funext fun a => by
    match a with
    | ⟨0, _⟩ => rfl
    | ⟨1, _⟩ => rfl
  have e2 : ∀ k : Fin 4096, idx_main_v0 (ridx_main_v1 i k) = ix2 (⟨(i 1).val, (i 1).isLt⟩ : Fin 4096) k := fun k => funext fun a => by
    match a with
    | ⟨0, _⟩ => rfl
    | ⟨1, _⟩ => rfl
  have e3 : idx_main_v2 (idx_main_v3 i) = ix1 (⟨(i 1).val, (i 1).isLt⟩ : Fin 4096) := funext fun a => by
    match a with
    | ⟨0, _⟩ => rfl
  simp only [e1, e2, e3]
  rfl

end Cert.ReferenceIdeal.RefValue

end
-- ==== Proof.lean ====
/-
  A linear layer, y = x weightᵀ + bias, computed by one pipelined TensorCore kernel against the plain
  jnp expression.

  The kernel walks the 4096 output columns in eight blocks of 512. At each block it holds all of `x`
  (as four row-quarters, read through four windows on the one array), two consecutive 256-row blocks of
  `weight` (two windows on the one array) and a 512-wide slice of the bias row, and writes eight
  256 x 256 tiles, each a product of a quarter of `x` with the transpose of a weight block plus the
  broadcast bias. Over the extended reals a tile's entry is the sum over k of x(r, k) * weight(n, k)
  plus bias(n), and so is the reference's entry: its contraction of `x` with the transposed weight is
  the same sum, term by term. No algebraic law beyond reading both sides at an index is needed, so the
  inputs' finiteness is never used.

  Frames: the kernel's program, at either float instance, runs through the pipeline library's launch
  for windows that share arrays (the read-only arrays are dealt to their windows by shares); the
  reference is a straight line of host operations. The idealization rewrote nothing.
-/
import proofs.«162433_g38525856645424_cont_8to1_b_480_18_alg».proof.Defs
import proofs.«162433_g38525856645424_cont_8to1_b_480_18_alg».proof.Proof.Gen.Kernel
import proofs.«162433_g38525856645424_cont_8to1_b_480_18_alg».proof.Proof.Gen.KernelIdeal
import proofs.«162433_g38525856645424_cont_8to1_b_480_18_alg».proof.Proof.Gen.ReferenceIdeal
import proofs.«162433_g38525856645424_cont_8to1_b_480_18_alg».proof.Proof.Gen.Pre_finite_inputs
import proofs.«162433_g38525856645424_cont_8to1_b_480_18_alg».proof.Proof.BitsSide.Run
import proofs.«162433_g38525856645424_cont_8to1_b_480_18_alg».proof.Proof.IdealSide.Value
import proofs.«162433_g38525856645424_cont_8to1_b_480_18_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer of the (agreeing) arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
